-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibMatmulRowRow.lean ====
/-
  A rows-by-rows product read at an entry (a general lemma: nothing here depends on a program).

  For a left factor l of shape [A, K] and a right factor r of shape [C, K], the dimension numbers "contract axis 1 of l
  with axis 1 of r, no batch axis" give a result of shape [A, C].  Into a zero accumulator, over the extended reals,
  its entry (p, q) is the sum over k < K of l (p, k) · r (q, k): the product of l with the transpose of r, the
  transpose never formed.  Any sizes A, K, C.  A printed record with lists [1], [1], [0], [0], [], [] over such shapes
  is `DotDims.transposedRhs A K C` by `rfl`.
-/
import Idealize.ShloMosaic.Lib.ValueIdx
import Idealize.ShloMosaic.PureOps.Ideal.Laws

noncomputable section

namespace Cert.Lib.MatmulRowRow

open Idealize.ShloMosaic Idealize.ShloMosaic.ValueIdx

variable {A K C : Nat}

/-- The left factor is read at the result's row … -/
theorem lhs0 (j : (⟨2, ![A, C]⟩ : Shape).Idx) (q : (DotDims.transposedRhs A K C).contr.Idx) :
    ((DotDims.transposedRhs A K C).lhsIdx j q 0).val = (j 0).val := by
  unfold DotDims.lhsIdx
  rw [dif_neg (show ¬(0 : Fin 2) ∈ (DotDims.transposedRhs A K C).lhsBatch from List.not_mem_nil),
    dif_pos (show (0 : Fin 2) ∈ (DotDims.transposedRhs A K C).lhsNonContracting from List.mem_singleton.mpr rfl)]
  rfl

/-- … and at the contraction coordinate as its column. -/
theorem lhs1 (j : (⟨2, ![A, C]⟩ : Shape).Idx) (q : (DotDims.transposedRhs A K C).contr.Idx) :
    ((DotDims.transposedRhs A K C).lhsIdx j q 1).val = (q ⟨0, Nat.one_pos⟩).val :=
  (DotDims.transposedRhs A K C).lhsIdx_val_of_single rfl j q

/-- The right factor is read at the row that is the result's column … -/
theorem rhs0 (j : (⟨2, ![A, C]⟩ : Shape).Idx) (q : (DotDims.transposedRhs A K C).contr.Idx) :
    ((DotDims.transposedRhs A K C).rhsIdx j q 0).val = (j 1).val := by
  unfold DotDims.rhsIdx
  rw [dif_neg (show ¬(0 : Fin 2) ∈ (DotDims.transposedRhs A K C).rhsBatch from List.not_mem_nil),
    dif_pos (show (0 : Fin 2) ∈ (DotDims.transposedRhs A K C).rhsNonContracting from List.mem_singleton.mpr rfl)]
  rfl

/-- … and at the contraction coordinate as its column. -/
theorem rhs1 (j : (⟨2, ![A, C]⟩ : Shape).Idx) (q : (DotDims.transposedRhs A K C).contr.Idx) :
    ((DotDims.transposedRhs A K C).rhsIdx j q 1).val = (q ⟨0, Nat.one_pos⟩).val :=
  (DotDims.transposedRhs A K C).rhsIdx_val_of_single rfl j q

/-- The contraction at entry (p, q) is the sum over the K products l (p, k) · r (q, k). -/
theorem contr_sum (l : (⟨2, ![A, K]⟩ : Shape).Idx → EReal) (r : (⟨2, ![C, K]⟩ : Shape).Idx → EReal)
    (p : Fin A) (q : Fin C) :
    ∑ s : (DotDims.transposedRhs A K C).contr.Idx,
        l ((DotDims.transposedRhs A K C).lhsIdx (ix2 p q) s) * r ((DotDims.transposedRhs A K C).rhsIdx (ix2 p q) s)
      = ∑ k : Fin K, l (ix2 p k) * r (ix2 q k) := by
  rw [← Equiv.sum_comp (contrEquiv1 (DotDims.transposedRhs A K C) K rfl rfl).symm]
  refine Finset.sum_congr rfl fun k _ => ?_
  have hk := contrEquiv1_symm_val (DotDims.transposedRhs A K C) K rfl rfl k
  have el : (DotDims.transposedRhs A K C).lhsIdx (ix2 p q)
      ((contrEquiv1 (DotDims.transposedRhs A K C) K rfl rfl).symm k) = ix2 p k := funext fun a => Fin.ext (by
    match a with
    | ⟨0, _⟩ => exact lhs0 _ _
    | ⟨1, _⟩ => exact (lhs1 _ _).trans hk)
  have er : (DotDims.transposedRhs A K C).rhsIdx (ix2 p q)
      ((contrEquiv1 (DotDims.transposedRhs A K C) K rfl rfl).symm k) = ix2 q k := funext fun a => Fin.ext (by
    match a with
    | ⟨0, _⟩ => exact rhs0 _ _
    | ⟨1, _⟩ => exact (rhs1 _ _).trans hk)
  rw [el, er]

/-- Entry (p, q) of the product into a zero accumulator. -/
theorem matmul_zero_apply {φ₁ φ₂ : FTy} (prec : Option ContractPrecision)
    (l : FVec Ideal ⟨2, ![A, K]⟩ φ₁) (r : FVec Ideal ⟨2, ![C, K]⟩ φ₂) (p : Fin A) (q : Fin C) :
    FloatOps.matmul (DotDims.transposedRhs A K C) prec l r (constant ⟨2, ![A, C]⟩ .f32 0x00000000#32) (ix2 p q)
      = ∑ k : Fin K, (l (ix2 p k) : EReal) * (r (ix2 q k) : EReal) := by
  rw [Ideal.matmul_constant_zero_apply]
  exact contr_sum l r p q

end Cert.Lib.MatmulRowRow

end
-- ==== Proof.Entry.lean ====
/-
  What the kernel body stores, read at one entry over the extended reals.

  The body keeps a 1024 x 1024 block of partial sums.  At the first step of a run of eight it fills the block with
  zeros; at every step it adds to entry (p, q) the 512 products of row p of the step's block of x with row q of the
  step's block of w (the narrowing of both factors to a shorter float format changes nothing over the reals); at the
  last step it writes out the block with the bias row added to every row.
-/
import proofs.«136917_j9990093931082_1_alg».proof.Proof.Gen.KernelIdeal.Skeleton
import proofs.«136917_j9990093931082_1_alg».proof.Proof.LibMatmulRowRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Idealize.ShloMosaic Idealize.ShloMosaic.ValueIdx Cert.KernelIdeal Cert.KernelIdeal.Gen

/-- The block of zeros: every entry is the real number zero. -/
theorem zeros_apply (p q : Fin 1024) : k0_pay1 (F := Ideal) (ix2 p q) = (0 : EReal) := by
  unfold k0_pay1
  rw [shapeCast_self]
  exact Ideal.ofBits_zero_f32

/-- One step: entry (p, q) of the carried block, plus the sum over k < 512 of x0 (p, k) · x1 (q, k). -/
theorem step_apply (x0 x1 : Vec Ideal S1024x512 .f32) (acc : Vec Ideal S1024x1024 .f32) (p q : Fin 1024) :
    k0_pay2 (F := Ideal) x0 x1 acc (ix2 p q)
      = (acc (ix2 p q) : EReal) + ∑ k : Fin 512, (x0 (ix2 p k) : EReal) * (x1 (ix2 q k) : EReal) := by
  unfold k0_pay2
  rw [shapeCast_self]
  refine congrArg (fun z : EReal => (acc (ix2 p q) : EReal) + z) ?_
  exact Cert.Lib.MatmulRowRow.matmul_zero_apply (A := 1024) (K := 512) (C := 1024) none _ _ p q

/-- The last step's output: entry (p, q) of the carried block plus entry q of the one-row bias block. -/
theorem biased_apply (acc : Vec Ideal S1024x1024 .f32) (b : Vec Ideal S1x1024 .f32) (p q : Fin 1024) :
    k0_pay3 (F := Ideal) acc b (ix2 p q) = (acc (ix2 p q) : EReal) + (b (ix2 (0 : Fin 1) q) : EReal) := by
  unfold k0_pay3
  rw [shapeCast_self]
  exact congrArg (fun z : EReal => (acc (ix2 p q) : EReal) + z) (broadcastTo_1b_ab_apply b _ p q)

end Cert.KernelIdeal.Entry

end
-- ==== Proof.Pieces.lean ====
/-
  What each of the body's three control cases leaves behind, as a value.

  A run of eight grid steps shares one block of partial sums.  The first step of a run fills the block with zeros and
  then adds its products, so it leaves one accumulation step over the block of zeros; each later step leaves one
  accumulation step over what the step before left; the last step, after its own accumulation, also writes the output
  block: the block of partial sums just stored, with the bias row added.  Each statement holds for any float
  interpretation: it only says which stored value is read back.
-/
import proofs.«136917_j9990093931082_1_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen

variable {F : FTy → Type} [FloatOps F]

/-- The offsets of every load and store of the body are zero on both axes. -/
theorem zero_offsets : (![0, 0] : Fin 2 → Nat) = fun _ => 0 := funext fun a => by fin_cases a <;> rfl

/-- First step of a run: the partial sums are one accumulation step over the block of zeros. -/
theorem first_step (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S1024x512 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) zero_offsets]
  simp only [View.readAt_eq_ld, harg3.read_unread, harg4.read_unread, View.ld_unit_zero (S := S1024x512) zero_offsets,
    View.readCov_unit_zero (S := S1024x1024) _ zero_offsets]

/-- A middle step: one accumulation step over what the step before left. -/
theorem middle_step (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S1024x512 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x1024) zero_offsets]
  simp only [View.readAt_eq_ld, harg3.read_unread, harg4.read_unread, harg7.read_unread,
    View.ld_unit_zero (S := S1024x512) zero_offsets, View.ld_unit_zero (S := S1024x1024) zero_offsets]

/-- Last step of a run, the partial sums: again one accumulation step over what the step before left. -/
theorem last_step (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x1024) zero_offsets]
  simp only [View.readAt_eq_ld, harg3.read_unread, harg4.read_unread, harg7.read_unread,
    View.ld_unit_zero (S := S1024x512) zero_offsets, View.ld_unit_zero (S := S1024x1024) zero_offsets]

/-- Last step of a run, the output block: the partial sums this step has just stored, plus the bias row. -/
theorem last_step_output (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x1024) zero_offsets]
  simp only [View.readAt_eq_ld, harg3.read_unread, harg4.read_unread, harg5.read_unread, harg7.read_unread,
    View.ld_unit_zero (S := S1024x512) zero_offsets, View.ld_unit_zero (S := S1024x1024) zero_offsets,
    View.ld_unit_zero (S := S1x1024) zero_offsets, View.readCov_unit_zero (S := S1024x1024) _ zero_offsets]

end Cert.KernelIdeal.Pieces

end
-- ==== Proof.Blocks.lean ====
/-
  The blocks of the inputs the body sees at a grid point, read off the argument arrays.

  Grid point t (of 256, the last grid axis fastest) has coordinates (t / 32, (t / 8) % 4, t % 8): the row tile of x
  and of the output, the row tile of w (the output's column tile), and the step along the contracted axis.  At point
  t the body sees rows 1024·(t/32) … of x and rows 1024·((t/8)%4) … of w, both at columns 512·(t%8) …, and the bias
  entries 1024·((t/8)%4) …; the bias reaches the kernel as a one-row matrix, a reshape of the bias vector.
-/
import proofs.«136917_j9990093931082_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The argument arrays as the kernel region finds them, and the three input blocks at a grid point, each named at
    its literal type. -/
abbrev xarr (c : Dev nD) : Vec Ideal S8192x4096 .f32 := V m c main_arg0
abbrev warr (c : Dev nD) : Vec Ideal S4096x4096 .f32 := V m c main_arg1
abbrev brow (c : Dev nD) : Vec Ideal S1x4096 .f32 := V m c main_v0
abbrev xblk (c : Dev nD) (t : Fin cfg0.N) : Vec Ideal S1024x512 .f32 := iblk m c 0 t
abbrev wblk (c : Dev nD) (t : Fin cfg0.N) : Vec Ideal S1024x512 .f32 := iblk m c 1 t
abbrev bblk (c : Dev nD) (t : Fin cfg0.N) : Vec Ideal S1x1024 .f32 := iblk m c 2 t

/-- The printed index maps in closed form, decided over the grid. -/
theorem index_maps : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

theorem point_lt (t : Fin cfg0.N) : t.val < 256 := lt_of_lt_of_eq t.isLt (show cfg0.N = 256 from N_0)

/-- The block of x at point t. -/
theorem xblk_apply (c : Dev nD) (t : Fin cfg0.N) (p : Fin 1024) (k : Fin 512) :
    xblk m c t (ix2 p k) = xarr m c (ix2 (⟨1024 * (t.val / 32) + p.val, by have := point_lt t; omega⟩ : Fin 8192)
      (⟨512 * (t.val % 8) + k.val, by omega⟩ : Fin 4096)) := by
  obtain ⟨e0, e1, -⟩ := index_maps t
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 1024 + 1 * p.val = 1024 * (t.val / 32) + p.val; omega
  | ⟨1, _⟩ => show win0_0.index t (1 : Fin 2) * 512 + 1 * k.val = 512 * (t.val % 8) + k.val; omega

/-- The block of w at point t. -/
theorem wblk_apply (c : Dev nD) (t : Fin cfg0.N) (q : Fin 1024) (k : Fin 512) :
    wblk m c t (ix2 q k) = warr m c (ix2 (⟨1024 * (t.val / 8 % 4) + q.val, by omega⟩ : Fin 4096)
      (⟨512 * (t.val % 8) + k.val, by omega⟩ : Fin 4096)) := by
  obtain ⟨-, -, e0, e1, -⟩ := index_maps t
  show V m c main_arg1 (((cfg0.win 1).blk t).view.emb (ix2 q k)) = V m c main_arg1 _
  refine congrArg (V m c main_arg1) (funext fun a => Fin.ext ?_)
  match a with
  | ⟨0, _⟩ => show win0_1.index t (0 : Fin 2) * 1024 + 1 * q.val = 1024 * (t.val / 8 % 4) + q.val; omega
  | ⟨1, _⟩ => show win0_1.index t (1 : Fin 2) * 512 + 1 * k.val = 512 * (t.val % 8) + k.val; omega

/-- The block of the bias row at point t. -/
theorem bblk_apply (c : Dev nD) (t : Fin cfg0.N) (q : Fin 1024) :
    bblk m c t (ix2 (0 : Fin 1) q) = brow m c (ix2 (0 : Fin 1) (⟨1024 * (t.val / 8 % 4) + q.val, by omega⟩ : Fin 4096)) := by
  obtain ⟨-, -, -, -, e0, e1, -⟩ := index_maps t
  show V m c main_v0 (((cfg0.win 2).blk t).view.emb (ix2 (0 : Fin 1) q)) = V m c main_v0 _
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 1024 + 1 * q.val = 1024 * (t.val / 8 % 4) + q.val; omega

/-- The bias row is the bias vector reshaped to one row. -/
theorem brow_apply (c : Dev nD) (j : Fin 4096) :
    brow m c (ix2 (0 : Fin 1) j) = (m ((c : Thread nD τ).loc main_arg2) : S4096.Idx → EReal) (ix1 j) := by
  have e : (V m c main_v0 : S1x4096.Idx → EReal)
      = shapeCast S1x4096 (m ((c : Thread nD τ).loc main_arg2) : S4096.Idx → EReal) shapeCasts_S4096_S1x4096 := by
    dsimp only [V, hostOps0]; after_results; rfl
  show (V m c main_v0 : S1x4096.Idx → EReal) (ix2 (0 : Fin 1) j) = _
  rw [e]
  exact shapeCast_a_1a_apply _ _ (0 : Fin 1) j

end Cert.KernelIdeal.Blocks

end
-- ==== Proof.Fold.lean ====
/-
  The block of partial sums after any grid point, and the output block a run's last point writes.

  The 256 grid points fall into 32 runs of eight consecutive points; a run works on one output block.  After the
  point at offset j of its run, entry (p, q) of the carried block is the sum, over the run's points up to that one, of
  the 512 products each point adds: by the fold of the carried block over the run, unrolled into a sum.  The run's last
  point writes out that sum over all eight points, plus the bias entry.
-/
import proofs.«136917_j9990093931082_1_alg».proof.Proof.Gen.KernelIdeal.Value
import proofs.«136917_j9990093931082_1_alg».proof.Proof.Entry
import proofs.«136917_j9990093931082_1_alg».proof.Proof.Pieces
import proofs.«136917_j9990093931082_1_alg».proof.Proof.Blocks
import Idealize.ShloMosaic.Lib.Pipeline.Value

set_option maxRecDepth 16384

noncomputable section

namespace Cert.KernelIdeal.Fold

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

open Cert.KernelIdeal.Blocks

/-- What grid point n adds to entry i = (p, q) of the carried block: the 512 products of row p of its block of x with
    row q of its block of w (zero for a number that is no grid point, which is never used). -/
def addend (c : Dev nD) (n : ℕ) (i : S1024x1024.Idx) : EReal :=
  if h : n < cfg0.N then ∑ k : Fin 512, (xblk m c ⟨n, h⟩ (ix2 (i 0) k) : EReal) * (wblk m c ⟨n, h⟩ (ix2 (i 1) k) : EReal) else 0

/-- The first point of a run leaves one accumulation step over zeros, whatever the block held. -/
theorem first_point (c : Dev nD) (n : ℕ) (hb : n < cfg0.N) (h0 : n % 8 = 0) (acc : Vec Ideal S1024x1024 .f32) :
    Value.scAt0_0 m c n hb acc = k0_pay2 (F := Ideal) (xblk m c ⟨n, hb⟩) (wblk m c ⟨n, hb⟩) (k0_pay1 (F := Ideal)) := by
  have h1 : ¬n % 8 = 7 := by omega
  unfold Value.scAt0_0
  rw [dif_pos h0, dif_neg h1]
  exact Pieces.first_step (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
    ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))

/-- Every other point leaves one accumulation step over what the point before left. -/
theorem later_point (c : Dev nD) (n : ℕ) (hb : n < cfg0.N) (h0 : ¬n % 8 = 0) (acc : Vec Ideal S1024x1024 .f32) :
    Value.scAt0_0 m c n hb acc = k0_pay2 (F := Ideal) (xblk m c ⟨n, hb⟩) (wblk m c ⟨n, hb⟩) acc := by
  unfold Value.scAt0_0
  rw [dif_neg h0]
  by_cases h1 : n % 8 = 7
  · rw [dif_pos h1]
    exact Pieces.last_step (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
      (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc
  · rw [dif_neg h1]
    exact Pieces.middle_step (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
      (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc

/-- At an entry: the first point leaves zero plus its addend; -/
theorem first_point_apply (c : Dev nD) (n : ℕ) (hb : n < cfg0.N) (h0 : n % 8 = 0) (acc : Vec Ideal S1024x1024 .f32)
    (i : S1024x1024.Idx) : (Value.scAt0_0 m c n hb acc i : EReal) = 0 + addend m c n i := by
  obtain ⟨p, q, rfl⟩ : ∃ (p q : Fin 1024), i = ix2 p q := ⟨i 0, i 1, eq_ix2 i⟩
  rw [first_point m c n hb h0 acc]
  refine (Entry.step_apply (xblk m c ⟨n, hb⟩) (wblk m c ⟨n, hb⟩) (k0_pay1 (F := Ideal)) p q).trans ?_
  rw [Entry.zeros_apply]
  unfold addend
  rw [dif_pos hb]

/-- every other point leaves what it found plus its addend. -/
theorem later_point_apply (c : Dev nD) (n : ℕ) (hb : n < cfg0.N) (h0 : ¬n % 8 = 0) (acc : Vec Ideal S1024x1024 .f32)
    (i : S1024x1024.Idx) : (Value.scAt0_0 m c n hb acc i : EReal) = (acc i : EReal) + addend m c n i := by
  obtain ⟨p, q, rfl⟩ : ∃ (p q : Fin 1024), i = ix2 p q := ⟨i 0, i 1, eq_ix2 i⟩
  rw [later_point m c n hb h0 acc]
  refine (Entry.step_apply (xblk m c ⟨n, hb⟩) (wblk m c ⟨n, hb⟩) acc p q).trans ?_
  unfold addend
  rw [dif_pos hb]

/-- The partial sums: after point t the carried block holds, at each entry, the addends of the points of t's run up
    to t. -/
theorem partial_sums (c : Dev nD) (t : Fin cfg0.N) (i : S1024x1024.Idx) :
    ((outsAt0 m c t.val t.isLt).2 i : EReal) = ∑ s ∈ Finset.range (t.val % 8 + 1), addend m c (8 * (t.val / 8) + s) i := by
  have hN := point_lt t
  rw [Value.soutsAt0_0_eq m c t]
  refine (Pipeline.accAt_add_apply (N := cfg0.N) (ι := S1024x1024.Idx) (β := EReal)
    (fun n h => Value.scAt0_0 m c n h (VS0_0.read (Elt Ideal) VS0_0.junk)) (Value.scAt0_0 m c)
    (fun _ => 0) (addend m c) (8 * (t.val / 8)) 7
    (fun h i => first_point_apply m c _ h (by omega) _ i)
    (fun n h acc i hlo hhi => later_point_apply m c n h (by omega) acc i)
    (t.val % 8) (by omega) _ i).trans ?_
  rw [zero_add]

/-- The output block a run's last point writes: at entry (p, q), the addends of all eight points of the run, plus
    entry q of the point's bias block. -/
theorem output_apply (c : Dev nD) (t : Fin cfg0.N) (h7 : t.val % 8 = 7) (p q : Fin 1024) :
    ((outsAt0 m c t.val t.isLt).1 (ix2 p q) : EReal)
      = (∑ s ∈ Finset.range 8, addend m c (8 * (t.val / 8) + s) (ix2 p q)) + (bblk m c t (ix2 (0 : Fin 1) q) : EReal) := by
  have h0 : ¬t.val % 8 = 0 := by omega
  have hs : (outsAt0 m c t.val t.isLt).2
      = k0_pay2 (F := Ideal) (xblk m c t) (wblk m c t) (outsAt0 m c (t.val - 1) (Nat.lt_of_le_of_lt (Nat.sub_le _ _) t.isLt)).2 := by
    rw [outsAt0_C m c t h0 h7]; dsimp only
    exact Pieces.last_step (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h7) (iblk m c 0 t) (iblk m c 1 t) (iblk m c 2 t) _
  have ho : (outsAt0 m c t.val t.isLt).1
      = k0_pay3 (F := Ideal) (k0_pay2 (F := Ideal) (xblk m c t) (wblk m c t) (outsAt0 m c (t.val - 1) (Nat.lt_of_le_of_lt (Nat.sub_le _ _) t.isLt)).2) (bblk m c t) := by
    rw [outsAt0_C m c t h0 h7]; dsimp only
    exact Pieces.last_step_output (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h7) (iblk m c 0 t) (iblk m c 1 t) (iblk m c 2 t) _
  rw [ho, ← hs]
  refine (Entry.biased_apply (outsAt0 m c t.val t.isLt).2 (bblk m c t) p q).trans ?_
  rw [partial_sums m c t (ix2 p q), h7]

end Cert.KernelIdeal.Fold

end
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.Dense.lean ====
/-
  The specification, and the one law of sums the proof needs.

  A dense layer: y (i, j) = (the sum over k < 4096 of x (i, k) · w (j, k)) + b (j) — the product of x with the
  transpose of w, plus the bias added to every row.  Over the extended reals addition is commutative and associative
  (infinities included), so a sum of 4096 terms is the sum of eight consecutive runs of 512 terms; nothing here needs
  the inputs to be finite.
-/
import proofs.«136917_j9990093931082_1_alg».proof.Proof.LibBlockSum
import Idealize.ShloMosaic.Lib.ValueIdx
import Idealize.ShloMosaic.PureOps.Ideal

noncomputable section

namespace Cert.Dense

open Idealize.ShloMosaic Idealize.ShloMosaic.ValueIdx

/-- The layer as one function of the three argument arrays, entry by entry. -/
def linear (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => (∑ k : Fin 4096, x (ix2 (i 0) k) * w (ix2 (i 1) k)) + b (ix1 (i 1))

/-- Term number n of the inner product of row P of x with row Q of w (zero past the row's end, which is never read). -/
def term (x : (⟨2, ![8192, 4096]⟩ : Shape).Idx → EReal) (w : (⟨2, ![4096, 4096]⟩ : Shape).Idx → EReal)
    (P : Fin 8192) (Q : Fin 4096) (n : ℕ) : EReal :=
  if h : n < 4096 then x (ix2 P ⟨n, h⟩) * w (ix2 Q ⟨n, h⟩) else 0

theorem term_of_lt (x : (⟨2, ![8192, 4096]⟩ : Shape).Idx → EReal) (w : (⟨2, ![4096, 4096]⟩ : Shape).Idx → EReal)
    (P : Fin 8192) (Q : Fin 4096) (n : ℕ) (h : n < 4096) : term x w P Q n = x (ix2 P ⟨n, h⟩) * w (ix2 Q ⟨n, h⟩) :=
  dif_pos h

/-- Eight runs of 512 terms are the whole inner product. -/
theorem eight_runs (x : (⟨2, ![8192, 4096]⟩ : Shape).Idx → EReal) (w : (⟨2, ![4096, 4096]⟩ : Shape).Idx → EReal)
    (P : Fin 8192) (Q : Fin 4096) :
    ∑ s ∈ Finset.range 8, ∑ j : Fin 512, term x w P Q (512 * s + j.val) = ∑ k : Fin 4096, x (ix2 P k) * w (ix2 Q k) := by
  rw [BlockSum.sum_blocks 512 8 (term x w P Q)]
  show ∑ k : Fin 4096, term x w P Q k.val = _
  exact Finset.sum_congr rfl fun k _ => term_of_lt x w P Q k.val k.isLt

end Cert.Dense

end
-- ==== Proof.Final.lean ====
/-
  The output array after the kernel's run is the dense layer of the argument arrays.

  A run's last point (t % 8 = 7) writes output block (t / 32, (t / 8) % 4).  Entry (p, q) of what it writes is the sum
  of the run's eight addends plus a bias entry; read off the argument arrays, the eight addends are the eight
  consecutive runs of 512 terms of the inner product of row 1024·(t/32) + p of x with row 1024·((t/8)%4) + q of w, so
  their sum is the whole inner product, and the bias entry is entry 1024·((t/8)%4) + q of the bias vector.  The 32
  written blocks tile the 8192 x 4096 output: entry (r, s) lies in the block written at point
  32·(r/1024) + 8·(s/1024) + 7.
-/
import proofs.«136917_j9990093931082_1_alg».proof.Proof.Gen.KernelIdeal.Value
import proofs.«136917_j9990093931082_1_alg».proof.Proof.Fold
import proofs.«136917_j9990093931082_1_alg».proof.Proof.Blocks
import proofs.«136917_j9990093931082_1_alg».proof.Proof.Dense
import Idealize.ShloMosaic.Lib.Pipeline.Value

set_option maxRecDepth 16384

noncomputable section

namespace Cert.KernelIdeal.Final

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

open Cert.KernelIdeal.Blocks Cert.KernelIdeal.Fold

/-- The layer of the arrays as the kernel region finds them. -/
abbrev result (c : Dev nD) : S8192x4096.Idx → EReal :=
  Cert.Dense.linear (xarr m c) (warr m c) (m ((c : Thread nD τ).loc main_arg2))

/-- The rows of x and of w that entry (p, q) of point t's blocks belongs to. -/
abbrev xrow (t : Fin cfg0.N) (p : Fin 1024) : Fin 8192 := ⟨1024 * (t.val / 32) + p.val, by have := point_lt t; omega⟩
abbrev wrow (t : Fin cfg0.N) (q : Fin 1024) : Fin 4096 := ⟨1024 * (t.val / 8 % 4) + q.val, by omega⟩

theorem run_point_lt (t : Fin cfg0.N) (s : ℕ) (hs : s < 8) : 8 * (t.val / 8) + s < cfg0.N := by
  have := point_lt t
  show _ < grid0.N
  rw [N_0]; omega

/-- The addend of the point at offset s of t's run, read off the argument arrays: run s of 512 terms of the inner
    product of x's row with w's row. -/
theorem addend_eq (c : Dev nD) (t : Fin cfg0.N) (s : ℕ) (hs : s < 8) (p q : Fin 1024) :
    addend m c (8 * (t.val / 8) + s) (ix2 p q)
      = ∑ j : Fin 512, Cert.Dense.term (xarr m c) (warr m c) (xrow t p) (wrow t q) (512 * s + j.val) := by
  have hT := point_lt t
  unfold addend
  rw [dif_pos (run_point_lt t s hs)]
  refine Finset.sum_congr rfl fun k _ => ?_
  rw [Cert.Dense.term_of_lt _ _ _ _ _ (by have := k.isLt; omega)]
  have ex : xblk m c ⟨8 * (t.val / 8) + s, run_point_lt t s hs⟩ (ix2 p k)
      = xarr m c (ix2 (xrow t p) ⟨512 * s + k.val, by have := k.isLt; omega⟩) :=
    (xblk_apply m c ⟨8 * (t.val / 8) + s, run_point_lt t s hs⟩ p k).trans (congrArg (xarr m c) (funext fun a => Fin.ext (by
      match a with
      | ⟨0, _⟩ => show 1024 * ((8 * (t.val / 8) + s) / 32) + p.val = 1024 * (t.val / 32) + p.val; omega
      | ⟨1, _⟩ => show 512 * ((8 * (t.val / 8) + s) % 8) + k.val = 512 * s + k.val; omega)))
  have ew : wblk m c ⟨8 * (t.val / 8) + s, run_point_lt t s hs⟩ (ix2 q k)
      = warr m c (ix2 (wrow t q) ⟨512 * s + k.val, by have := k.isLt; omega⟩) :=
    (wblk_apply m c ⟨8 * (t.val / 8) + s, run_point_lt t s hs⟩ q k).trans (congrArg (warr m c) (funext fun a => Fin.ext (by
      match a with
      | ⟨0, _⟩ => show 1024 * ((8 * (t.val / 8) + s) / 8 % 4) + q.val = 1024 * (t.val / 8 % 4) + q.val; omega
      | ⟨1, _⟩ => show 512 * ((8 * (t.val / 8) + s) % 8) + k.val = 512 * s + k.val; omega)))
  exact congrArg₂ (fun (a b : EReal) => a * b) ex ew

/-- Two matrices that agree at every entry (p, q) are equal. -/
theorem ext_entries {α : Type} {n0 n1 : ℕ} (A B : (⟨2, ![n0, n1]⟩ : Shape).Idx → α)
    (h : ∀ (p : Fin n0) (q : Fin n1), A (ix2 p q) = B (ix2 p q)) : A = B :=
  funext fun y => by rw [eq_ix2 y]; exact h _ _

/-- What a run's last point writes back is its block of the layer. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  obtain ⟨-, -, -, -, -, -, e0, e1⟩ := index_maps t
  rw [Value.flushed3 m c t]
  refine ext_entries (n0 := 1024) (n1 := 1024) _ _ fun p q => ?_
  show ((outsAt0 m c t.val t.isLt).1 (ix2 p q) : EReal) = result m c (((cfg0.win 3).blk t).view.emb (ix2 p q))
  have hemb : ((cfg0.win 3).blk t).view.emb (ix2 p q) = ix2 (xrow t p) (wrow t q) := funext fun a => Fin.ext (by
    match a with
    | ⟨0, _⟩ => show win0_3.index t (0 : Fin 2) * 1024 + 1 * p.val = 1024 * (t.val / 32) + p.val; omega
    | ⟨1, _⟩ => show win0_3.index t (1 : Fin 2) * 1024 + 1 * q.val = 1024 * (t.val / 8 % 4) + q.val; omega)
  rw [hemb, output_apply m c t h7 p q,
    Finset.sum_congr rfl (fun s hs => addend_eq m c t s (Finset.mem_range.mp hs) p q),
    Cert.Dense.eight_runs, bblk_apply, brow_apply]
  rfl

/-- An entry of the array is in point t's block iff each coordinate is in the block's range on its axis. -/
theorem mem_block (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Every entry of the output lies in the block some run's last point writes. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hn : 32 * ((i 0).val / 1024) + 8 * ((i 1).val / 1024) + 7 < cfg0.N := by
    show _ < grid0.N
    rw [N_0]; omega
  obtain ⟨-, -, -, -, -, -, e0, e1⟩ := index_maps ⟨32 * ((i 0).val / 1024) + 8 * ((i 1).val / 1024) + 7, hn⟩
  have e0' : win0_3.index ⟨32 * ((i 0).val / 1024) + 8 * ((i 1).val / 1024) + 7, hn⟩ (0 : Fin 2)
      = (32 * ((i 0).val / 1024) + 8 * ((i 1).val / 1024) + 7) / 32 := e0
  have e1' : win0_3.index ⟨32 * ((i 0).val / 1024) + 8 * ((i 1).val / 1024) + 7, hn⟩ (1 : Fin 2)
      = (32 * ((i 0).val / 1024) + 8 * ((i 1).val / 1024) + 7) / 8 % 4 := e1
  refine ⟨⟨32 * ((i 0).val / 1024) + 8 * ((i 1).val / 1024) + 7, hn⟩, (flush0_3 _).mpr ?_, ?_⟩
  · show (32 * ((i 0).val / 1024) + 8 * ((i 1).val / 1024) + 7) % 8 = 7
    omega
  · rw [mem_block]
    intro a
    match a with
    | ⟨0, _⟩ =>
      show win0_3.index _ (0 : Fin 2) * 1024 ≤ (i 0).val ∧ (i 0).val < win0_3.index _ (0 : Fin 2) * 1024 + 1024
      rw [e0']; omega
    | ⟨1, _⟩ =>
      show win0_3.index _ (1 : Fin 2) * 1024 ≤ (i 1).val ∧ (i 1).val < win0_3.index _ (1 : Fin 2) * 1024 + 1024
      rw [e1']; omega

/-- The array after the run: the layer of the three arguments as launched. -/
theorem final (c : Dev nD) : (dats m 0 c).arrAt 3 cfg0.N
    = Cert.Dense.linear (m ((c : Thread nD τ).loc main_arg0)) (m ((c : Thread nD τ).loc main_arg1)) (m ((c : Thread nD τ).loc main_arg2)) := by
  have h := (dats m 0 c).arrAt_eq_of_cover 3 (result m c) (fun t hf => flushed_eq m c t hf) covered
  rw [h]
  show Cert.Dense.linear (V m c main_arg0) (V m c main_arg1) _ = _
  rw [V_main_arg0, V_main_arg1]

/-- The kernel's run re-posted: the result array is the layer of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1)
        = Cert.Dense.linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.Reference.lean ====
/-
  The reference computes the dense layer.

  The reference program is four host operations: the product of x with w contracting the second axis of both, the
  bias vector broadcast first to one row and then down the rows, and their sum.  Read at entry i, the product is the
  sum over k < 4096 of x (i₀, k) · w (i₁, k) and the broadcast bias is b (i₁): the layer, by definition.
-/
import proofs.«136917_j9990093931082_1_alg».proof.Proof.Gen.ReferenceIdeal.Read
import proofs.«136917_j9990093931082_1_alg».proof.Proof.Dense
import Idealize.ShloMosaic.Lib.ValueIdx

noncomputable section

namespace Cert.ReferenceIdeal.Layer

open Idealize.ShloMosaic Idealize.ShloMosaic.ValueIdx Cert.ReferenceIdeal Cert.ReferenceIdeal.Read

/-- The reference's result term is the layer of its three arguments. -/
theorem result_eq (x : (⟨S8192x4096, .f32⟩ : BufTy).Contents (Elt Ideal)) (w : (⟨S4096x4096, .f32⟩ : BufTy).Contents (Elt Ideal))
    (b : (⟨S4096, .f32⟩ : BufTy).Contents (Elt Ideal)) :
    val_main_v3 (F := Ideal) x w b = Cert.Dense.linear x w b := by
  funext i
  have el : ∀ k : Fin 4096, lidx_main_v0 i k = ix2 (i 0) k := fun k => funext fun a => Fin.ext (by
    match a with
    | ⟨0, _⟩ => rfl
    | ⟨1, _⟩ => rfl)
  have er : ∀ k : Fin 4096, ridx_main_v0 i k = ix2 (i 1) k := fun k => funext fun a => Fin.ext (by
    match a with
    | ⟨0, _⟩ => rfl
    | ⟨1, _⟩ => rfl)
  have eb : idx_main_v1 (idx_main_v2 i) = ix1 (i 1) := funext fun a => Fin.ext (by
    match a with
    | ⟨0, _⟩ => rfl)
  rw [val_main_v3_apply, val_main_v0_apply, val_main_v2_apply, val_main_v1_apply, eb]
  simp only [el, er]
  rfl

end Cert.ReferenceIdeal.Layer

end
-- ==== Proof.lean ====
/-
  A dense layer computed tile by tile equals the dense layer computed whole, over the extended reals.

  Both programs take x : [8192, 4096], w : [4096, 4096] and a bias b : [4096] and return y : [8192, 4096] with
  y (i, j) = (sum over k < 4096 of x (i, k) · w (j, k)) + b (j).

  The reference forms the whole product and adds the broadcast bias.  The kernel walks a grid of 8 x 4 x 8 points.
  The first two coordinates choose a 1024 x 1024 block of y; the third runs over eight 512-wide slices of the
  contracted axis.  A block of partial sums is carried from point to point: it is zeroed at the first slice, every
  slice adds its 512 products to each entry, and after the last slice the block is written out with the bias added.
  (The kernel narrows both factors to a shorter float format before multiplying; over the reals that is the identity.)

  So entry (i, j) of the kernel's result is ((0 + S₀) + S₁ + … + S₇) + b (j), where Sₛ is the sum of the products over
  slice s.  Addition of extended reals is commutative and associative, infinities included, so the eight slice sums add
  up to the whole inner product: the two results agree at every entry, whatever the inputs hold.  The proof is laid
  out as: the stored values at one entry (Entry), which stored value each control case reads back (Pieces), the input
  blocks as parts of the argument arrays (Blocks), the carried block as a sum over its run (Fold), the written blocks
  as blocks of the layer and their cover of the output (Final), the reference as the layer (Reference), the layer and
  the splitting of a 4096-term sum into eight runs (Dense).

  Each program's run terminates without a fault and leaves its arguments unchanged (the three frame claims); the
  idealized kernel is the kernel's own text read over the extended reals, with no rewrite to account for.
-/
import proofs.«136917_j9990093931082_1_alg».proof.Defs
import proofs.«136917_j9990093931082_1_alg».proof.Proof.Gen.Kernel
import proofs.«136917_j9990093931082_1_alg».proof.Proof.Gen.Kernel.Skeleton
import proofs.«136917_j9990093931082_1_alg».proof.Proof.Gen.Kernel.Launch
import proofs.«136917_j9990093931082_1_alg».proof.Proof.Gen.Kernel.Points
import proofs.«136917_j9990093931082_1_alg».proof.Proof.Gen.Kernel.Frame
import proofs.«136917_j9990093931082_1_alg».proof.Proof.Gen.KernelIdeal
import proofs.«136917_j9990093931082_1_alg».proof.Proof.Gen.KernelIdeal.Skeleton
import proofs.«136917_j9990093931082_1_alg».proof.Proof.Gen.KernelIdeal.Launch
import proofs.«136917_j9990093931082_1_alg».proof.Proof.Gen.KernelIdeal.Points
import proofs.«136917_j9990093931082_1_alg».proof.Proof.Gen.KernelIdeal.Frame
import proofs.«136917_j9990093931082_1_alg».proof.Proof.Gen.ReferenceIdeal
import proofs.«136917_j9990093931082_1_alg».proof.Proof.Gen.Pre_finite_inputs
import proofs.«136917_j9990093931082_1_alg».proof.Proof.Gen.KernelIdeal.Value
import proofs.«136917_j9990093931082_1_alg».proof.Proof.Gen.ReferenceIdeal.Run
import proofs.«136917_j9990093931082_1_alg».proof.Proof.Gen.ReferenceIdeal.Read
import proofs.«136917_j9990093931082_1_alg».proof.Proof.Final
import proofs.«136917_j9990093931082_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x, w and b, both programs end with the result array at the layer of the arguments:
    the kernel by the cover of the output with the written blocks, the reference by reading its four operations. -/
theorem algebraic : Cert.algebraic_KernelIdeal_ReferenceIdeal := by
  intro m ρ m' ρ' _ hagree
  refine ⟨fun c => Cert.Dense.linear (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Layer.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
